-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x2 : Shape := ⟨3, ![2, 1024, 2]⟩
abbrev S2x128 : Shape := ⟨2, ![2, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S2x1024x2 : S_.BroadcastsInDim S2x1024x2 (![] : Fin 0 → Fin S2x1024x2.rank)
  reducesTo_S2x1024x2_S_d0_1_2 : S2x1024x2.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x8 .f32) (main_arg7 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x8 .f32 := Host.absf main_arg6
  let main_cst_10 : FVec F S_ .f32 := constant S_ .f32 0x7F800000#32
  let main_v30 : FVec F S128x8 .f32 := broadcastInDim S128x8 ![] bcast_S_S128x8 main_cst_10
  let main_v31 : IVec S128x8 1 := cmpf .olt main_v29 main_v30
  let main_c_11 : IVec S_ 1 := constantI S_ 1 1#1
  let main_v32 : IVec S_ 1 := (fun x v => Host.reduce IntOp.andi x v reducesTo_S128x8_S_d0_1 h_S_) main_v31 main_c_11
  let main_v33 : IVec S_ 1 := andi main_v28 main_v32
  fn_part2 (F := F) main_arg7 main_v33

def fn {F : FTy → Type} [FloatOps F] (main_arg0 : FVec F S2x1024x2 .f32) (main_arg1 : FVec F S2x1024x2 .f32) (main_arg2 : FVec F S2x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S2x1024x2 .f32 := Host.absf main_arg0
  let main_cst : FVec F S_ .f32 := constant S_ .f32 0x7F800000#32
  let main_v1 : FVec F S2x1024x2 .f32 := broadcastInDim S2x1024x2 ![] bcast_S_S2x1024x2 main_cst
  let main_v2 : IVec S2x1024x2 1 := cmpf .olt main_v0 main_v1
  let main_c : IVec S_ 1 := constantI S_ 1 1#1
  let main_v3 : IVec S_ 1 := (fun x v => Host.reduce IntOp.andi x v reducesTo_S2x1024x2_S_d0_1_2 h_S_) main_v2 main_c
  let main_v4 : FVec F S2x1024x2 .f32 := Host.absf main_arg1
  let main_cst_0 : FVec F S_ .f32 := constant S_ .f32 0x7F800000#32
  let main_v5 : FVec F S2x1024x2 .f32 := broadcastInDim S2x1024x2 ![] bcast_S_S2x1024x2 main_cst_0
  let main_v6 : IVec S2x1024x2 1 := cmpf .olt main_v4 main_v5
  let main_c_1 : IVec S_ 1 := constantI S_ 1 1#1
  let main_v7 : IVec S_ 1 := (fun x v => Host.reduce IntOp.andi x v reducesTo_S2x1024x2_S_d0_1_2 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S2x1024x2 : Shape := ⟨3, ![2, 1024, 2]⟩
abbrev S2x128 : Shape := ⟨2, ![2, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x8x1024x1024 : Shape := ⟨4, ![2, 8, 1024, 1024]⟩
abbrev S1x128x2 : Shape := ⟨3, ![1, 128, 2]⟩
abbrev S1x8x128x128 : Shape := ⟨4, ![1, 8, 128, 128]⟩
abbrev S128x2 : Shape := ⟨2, ![128, 2]⟩
abbrev S128x1x2 : Shape := ⟨3, ![128, 1, 2]⟩
abbrev S128x128x2 : Shape := ⟨3, ![128, 128, 2]⟩
abbrev S16384x2 : Shape := ⟨2, ![16384, 2]⟩
abbrev S16384x128 : Shape := ⟨2, ![16384, 128]⟩
abbrev S1x128 : Shape := ⟨2, ![1, 128]⟩
abbrev S16384x8 : Shape := ⟨2, ![16384, 8]⟩
abbrev S1x8 : Shape := ⟨2, ![1, 8]⟩
abbrev S128x128x8 : Shape := ⟨3, ![128, 128, 8]⟩
abbrev S8x128x128 : Shape := ⟨3, ![8, 128, 128]⟩

abbrev nBuf : Space → Nat
  | .hbm => 12
  | .vmem => 12
  | .smem => 0
  | _ => 0

abbrev bufTy : (tb : Table) → Fin (tcTables nBuf tb) → BufTy
  | .hbm, ⟨0, _⟩ => ⟨S2x1024x2, .f32⟩
  | .hbm, ⟨1, _⟩ => ⟨S2x1024x2, .f32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S2x128, .bf16⟩
  | .hbm, ⟨9, _⟩ => ⟨S128x128, .bf16⟩
  | .hbm, ⟨10, _⟩ => ⟨S128x8, .bf16⟩
  | .hbm, ⟨11, _⟩ => ⟨S2x8x1024x1024, .f32⟩
  | .local _ .vmem, ⟨0, _⟩ => ⟨S1x128x2, .f32⟩
  | .local _ .vmem, ⟨1, _⟩ => ⟨S1x128x2, .f32⟩
  | .local _ .vmem, ⟨2, _⟩ => ⟨S1x128x2, .f32⟩
  | .local _ .vmem, ⟨3, _⟩ => ⟨S1x128x2, .f32⟩
  | .local _ .vmem, ⟨4, _⟩ => ⟨S2x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x8, .bf16⟩
  | .local _ .vmem, ⟨9, _⟩ => ⟨S8, .f32⟩
  | .local _ .vmem, ⟨10, _⟩ => ⟨S1x8x128x128, .f32⟩
  | .local _ .vmem, ⟨11, _⟩ => ⟨S1x8x128x128, .f32⟩
  | _, _ => ⟨S2x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  bitsLt_bf16_f32 : FTy.bits .bf16 < FTy.bits .f32
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S128x1x2 : S128x2.ShapeCasts S128x1x2
  shapeCasts_S128x2_S1x128x2 : S128x2.ShapeCasts S1x128x2
  broadcasts_S128x1x2_S128x128x2 : S128x1x2.Broadcasts S128x128x2
  broadcasts_S1x128x2_S128x128x2 : S1x128x2.Broadcasts S128x128x2
  shapeCasts_S128x128x2_S16384x2 : S128x128x2.ShapeCasts S16384x2
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S1x8 : S8.ShapeCasts S1x8
  broadcasts_S1x8_S16384x8 : S1x8.Broadcasts S16384x8
  shapeCasts_S16384x8_S128x128x8 : S16384x8.ShapeCasts S128x128x8
  transposes_S128x128x8_p2_0_1_S8x128x128 : S128x128x8.Transposes [2, 0, 1] S8x128x128
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  shapeCasts_S8x128x128_S1x8x128x128 : S8x128x128.ShapeCasts S1x8x128x128
  dot_S16384x2_S2x128_S16384x128_1_0_0_1_n_n_wf : DotDims.WF S16384x2 S2x128 S16384x128 [1] [0] [0] [1] [] []
  dot_S16384x128_S128x128_S16384x128_1_0_0_1_n_n_wf : DotDims.WF S16384x128 S128x128 S16384x128 [1] [0] [0] [1] [] []
  dot_S16384x128_S128x8_S16384x8_1_0_0_1_n_n_wf : DotDims.WF S16384x128 S128x8 S16384x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2.size a ≤ S2x1024x2.size a
  hwx0_0 : ∀ i : grid0.Coords, EltTy.bits .f32 = 32 ∨ (Rect.block (s := S2x1024x2) S1x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2.size a ≤ S2x1024x2.size a
  hwx0_1 : ∀ i : grid0.Coords, EltTy.bits .f32 = 32 ∨ (Rect.block (s := S2x1024x2) S1x128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .bf16 = 32 ∨ (Rect.block (s := S2x128) S2x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x8.size a ≤ S128x8.size a
  hwx0_6 : ∀ i : grid0.Coords, EltTy.bits .bf16 = 32 ∨ (Rect.block (s := S128x8) S128x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128x128.size a ≤ S2x8x1024x1024.size a
  hwx0_8 : ∀ i : grid0.Coords, EltTy.bits .f32 = 32 ∨ (Rect.block (s := S2x8x1024x1024) S1x8x128x128.size (cc0_transform_8 i) (hinb0_8 i)).WholeWords (EltTy.packing .f32)

variable [Facts₀]

def dot_S16384x2_S2x128_S16384x128_1_0_0_1_n_n : DotDims S16384x2 S2x128 S16384x128 where
  lhsContracting := [1]
  rhsContracting := [0]
  lhsNonContracting := [0]
  rhsNonContracting := [1]
  lhsBatch := []
  rhsBatch := []
  wf := dot_S16384x2_S2x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x8_S16384x8_1_0_0_1_n_n : DotDims S16384x128 S128x8 S16384x8 where
  lhsContracting := [1]
  rhsContracting := [0]
  lhsNonContracting := [0]
  rhsNonContracting := [1]
  lhsBatch := []
  rhsBatch := []
  wf := dot_S16384x128_S128x8_S16384x8_1_0_0_1_n_n_wf

abbrev win0_0 : Pipeline.Window sig grid0 :=
  Pipeline.Window.ofSpec (Memref.whole main_arg0) S1x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x8x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x1024x2 : Shape := ⟨3, ![2, 1024, 2]⟩
abbrev S2x128 : Shape := ⟨2, ![2, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x1024x1x2 : Shape := ⟨4, ![2, 1024, 1, 2]⟩
abbrev S2x1x1024x2 : Shape := ⟨4, ![2, 1, 1024, 2]⟩
abbrev S2x1024x1024x2 : Shape := ⟨4, ![2, 1024, 1024, 2]⟩
abbrev S2x1024x1024x128 : Shape := ⟨4, ![2, 1024, 1024, 128]⟩
abbrev S1x1x1x128 : Shape := ⟨4, ![1, 1, 1, 128]⟩
abbrev S_ : Shape := ⟨0, ![]⟩
abbrev S2x1024x1024x8 : Shape := ⟨4, ![2, 1024, 1024, 8]⟩
abbrev S1x1x1x8 : Shape := ⟨4, ![1, 1, 1, 8]⟩
abbrev S2x8x1024x1024 : Shape := ⟨4, ![2, 8, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x1024x2, .f32⟩
  | .hbm, ⟨1, _⟩ => ⟨S2x1024x2, .f32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S2x1024x1x2, .f32⟩
  | .hbm, ⟨9, _⟩ => ⟨S2x1x1024x2, .f32⟩
  | .hbm, ⟨10, _⟩ => ⟨S2x1024x1024x2, .f32⟩
  | .hbm, ⟨11, _⟩ => ⟨S2x1024x1024x2, .f32⟩
  | .hbm, ⟨12, _⟩ => ⟨S2x1024x1024x2, .f32⟩
  | .hbm, ⟨13, _⟩ => ⟨S2x1024x1024x128, .f32⟩
  | .hbm, ⟨14, _⟩ => ⟨S1x1x1x128, .f32⟩
  | .hbm, ⟨15, _⟩ => ⟨S2x1024x1024x128, .f32⟩
  | .hbm, ⟨16, _⟩ => ⟨S2x1024x1024x128, .f32⟩
  | .hbm, ⟨17, _⟩ => ⟨S_, .f32⟩
  | .hbm, ⟨18, _⟩ => ⟨S2x1024x1024x128, .f32⟩
  | .hbm, ⟨19, _⟩ => ⟨S2x1024x1024x128, .f32⟩
  | .hbm, ⟨20, _⟩ => ⟨S2x1024x1024x128, .f32⟩
  | .hbm, ⟨21, _⟩ => ⟨S1x1x1x128, .f32⟩
  | .hbm, ⟨22, _⟩ => ⟨S2x1024x1024x128, .f32⟩
  | .hbm, ⟨23, _⟩ => ⟨S2x1024x1024x128, .f32⟩
  | .hbm, ⟨24, _⟩ => ⟨S_, .f32⟩
  | .hbm, ⟨25, _⟩ => ⟨S2x1024x1024x128, .f32⟩
  | .hbm, ⟨26, _⟩ => ⟨S2x1024x1024x128, .f32⟩
  | .hbm, ⟨27, _⟩ => ⟨S2x1024x1024x8, .f32⟩
  | .hbm, ⟨28, _⟩ => ⟨S1x1x1x8, .f32⟩
  | .hbm, ⟨29, _⟩ => ⟨S2x1024x1024x8, .f32⟩
  | .hbm, ⟨30, _⟩ => ⟨S2x1024x1024x8, .f32⟩
  | .hbm, ⟨31, _⟩ => ⟨S2x8x1024x1024, .f32⟩
  | _, _ => ⟨S2x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S2x1024x2_S2x1024x1x2_0_1_3 : S2x1024x2.BroadcastsInDim S2x1024x1x2 (![0, 1, 3] : Fin 3 → Fin S2x1024x1x2.rank)
  bcast_S2x1024x2_S2x1x1024x2_0_2_3 : S2x1024x2.BroadcastsInDim S2x1x1024x2 (![0, 2, 3] : Fin 3 → Fin S2x1x1024x2.rank)
  bcast_S2x1024x1x2_S2x1024x1024x2_0_1_2_3 : S2x1024x1x2.BroadcastsInDim S2x1024x1024x2 (![0, 1, 2, 3] : Fin 4 → Fin S2x1024x1024x2.rank)
  bcast_S2x1x1024x2_S2x1024x1024x2_0_1_2_3 : S2x1x1024x2.BroadcastsInDim S2x1024x1024x2 (![0, 1, 2, 3] : Fin 4 → Fin S2x1024x1024x2.rank)
  bcast_S128_S1x1x1x128_3 : S128.BroadcastsInDim S1x1x1x128 (![3] : Fin 1 → Fin S1x1x1x128.rank)
  bcast_S1x1x1x128_S2x1024x1024x128_0_1_2_3 : S1x1x1x128.BroadcastsInDim S2x1024x1024x128 (![0, 1, 2, 3] : Fin 4 → Fin S2x1024x1024x128.rank)
  bcast_S_S2x1024x1024x128 : S_.BroadcastsInDim S2x1024x1024x128 (![] : Fin 0 → Fin S2x1024x1024x128.rank)
  bcast_S8_S1x1x1x8_3 : S8.BroadcastsInDim S1x1x1x8 (![3] : Fin 1 → Fin S1x1x1x8.rank)
  bcast_S1x1x1x8_S2x1024x1024x8_0_1_2_3 : S1x1x1x8.BroadcastsInDim S2x1024x1024x8 (![0, 1, 2, 3] : Fin 4 → Fin S2x1024x1024x8.rank)
  transposes_S2x1024x1024x8_S2x8x1024x1024_0_3_1_2 : S2x1024x1024x8.Transposes [0, 3, 1, 2] S2x8x1024x1024
  dot_S2x1024x1024x2_S2x128_S2x1024x1024x128_3_0_012_1_n_n_wf : DotDims.WF S2x1024x1024x2 S2x128 S2x1024x1024x128 [3] [0] [0, 1, 2] [1] [] []
  dot_S2x1024x1024x128_S128x128_S2x1024x1024x128_3_0_012_1_n_n_wf : DotDims.WF S2x1024x1024x128 S128x128 S2x1024x1024x128 [3] [0] [0, 1, 2] [1] [] []
  dot_S2x1024x1024x128_S128x8_S2x1024x1024x8_3_0_012_1_n_n_wf : DotDims.WF S2x1024x1024x128 S128x8 S2x1024x1024x8 [3] [0] [0, 1, 2] [1] [] []

variable [Facts₀]

def dot_S2x1024x1024x2_S2x128_S2x1024x1024x128_3_0_012_1_n_n : DotDims S2x1024x1024x2 S2x128 S2x1024x1024x128 where
  lhsContracting := [3]
  rhsContracting := [0]
  lhsNonContracting := [0, 1, 2]
  rhsNonContracting := [1]
  lhsBatch := []
  rhsBatch := []
  wf := dot_S2x1024x1024x2_S2x128_S2x1024x1024x128_3_0_012_1_n_n_wf
def dot_S2x1024x1024x128_S128x128_S2x1024x1024x128_3_0_012_1_n_n : DotDims S2x1024x1024x128 S128x128 S2x1024x1024x128 where
  lhsContracting := [3]
  rhsContracting := [0]
  lhsNonContracting := [0, 1, 2]
  rhsNonContracting := [1]
  lhsBatch := []
  rhsBatch := []
  wf := dot_S2x1024x1024x128_S128x128_S2x1024x1024x128_3_0_012_1_n_n_wf
def dot_S2x1024x1024x128_S128x8_S2x1024x1024x8_3_0_012_1_n_n : DotDims S2x1024x1024x128 S128x8 S2x1024x1024x8 where
  lhsContracting := [3]
  rhsContracting := [0]
  lhsNonContracting := [0, 1, 2]
  rhsNonContracting := [1]
  lhsBatch := []
  rhsBatch := []
  wf := dot_S2x1024x1024x128_S128x8_S2x1024x1024x8_3_0_012_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Spec.lean ====
/-
  The positional-bias network as one function of the argument arrays.

  For a batch `b`, a query position `x`, a key position `y` and a head `n` the result is a three-layer perceptron
  of the relative coordinate `rel b x y c = Q[b, x, c] - K[b, y, c]` (two channels `c`):
      hid1 b x y j = max (∑ c, rel b x y c · W1[c, j] + B1[j]) 0        (128 units)
      hid2 b x y j = max (∑ i, hid1 b x y i · W2[i, j] + B2[j]) 0       (128 units)
      bias b x y n =      ∑ i, hid2 b x y i · W3[i, n] + B3[n]          (8 heads)
  and the result array, laid out `[batch, head, query, key]`, holds `bias b x y n` at `(b, n, x, y)`.
  Every value is an extended real; the rectifier's zero is the value of the all-zero word, left unevaluated.
-/
import Idealize.ShloMosaic.PureOps.Ideal.Laws
import Idealize.ShloMosaic.Lib.ValueIdx

noncomputable section

open scoped BigOperators

namespace Cert.PosBias

open Idealize.ShloMosaic Idealize.ShloMosaic.ValueIdx

/-- The rectifier's threshold: the value of the all-zero single-precision word. -/
abbrev zeroWord : EReal := Ideal.ofBits .f32 0x00000000#32

section
variable {nb nq nk : ℕ} (Q : FVec Ideal ⟨3, ![nb, nq, 2]⟩ .f32) (K : FVec Ideal ⟨3, ![nb, nk, 2]⟩ .f32) (W1 : FVec Ideal ⟨2, ![2, 128]⟩ .f32) (B1 : FVec Ideal ⟨1, ![128]⟩ .f32)
  (W2 : FVec Ideal ⟨2, ![128, 128]⟩ .f32) (B2 : FVec Ideal ⟨1, ![128]⟩ .f32) (W3 : FVec Ideal ⟨2, ![128, 8]⟩ .f32)
  (B3 : FVec Ideal ⟨1, ![8]⟩ .f32)

/-- The relative coordinate of query position `x` against key position `y`, channel `c`. -/
def rel (b : Fin nb) (x : Fin nq) (y : Fin nk) (c : Fin 2) : EReal := Q (ix3 b x c) - K (ix3 b y c)

/-- The first hidden layer: an affine map of the relative coordinate, rectified. -/
def hid1 (b : Fin nb) (x : Fin nq) (y : Fin nk) (j : Fin 128) : EReal :=
  max ((∑ c : Fin 2, rel Q K b x y c * W1 (ix2 c j)) + B1 (ix1 j)) zeroWord

/-- The second hidden layer: an affine map of the first, rectified. -/
def hid2 (b : Fin nb) (x : Fin nq) (y : Fin nk) (j : Fin 128) : EReal :=
  max ((∑ i : Fin 128, hid1 Q K W1 B1 b x y i * W2 (ix2 i j)) + B2 (ix1 j)) zeroWord

/-- The output layer: one bias per head, affine in the second hidden layer. -/
def bias (b : Fin nb) (x : Fin nq) (y : Fin nk) (n : Fin 8) : EReal :=
  (∑ i : Fin 128, hid2 Q K W1 B1 W2 B2 b x y i * W3 (ix2 i n)) + B3 (ix1 n)

/-- The network is local: its value at `(b, x, y)` reads only row `x` of the queries and row `y` of the keys. So two
    pairs of coordinate arrays (of any extents) that agree on those rows give the same biases there. -/
theorem bias_local {nb' nq' nk' : ℕ} (Q' : FVec Ideal ⟨3, ![nb', nq', 2]⟩ .f32) (K' : FVec Ideal ⟨3, ![nb', nk', 2]⟩ .f32)
    (b : Fin nb) (x : Fin nq) (y : Fin nk) (b' : Fin nb') (x' : Fin nq') (y' : Fin nk')
    (hq : ∀ c : Fin 2, Q (ix3 b x c) = Q' (ix3 b' x' c)) (hk : ∀ c : Fin 2, K (ix3 b y c) = K' (ix3 b' y' c)) (n n' : Fin 8)
    (hn : n = n') :
    bias Q K W1 B1 W2 B2 W3 B3 b x y n = bias Q' K' W1 B1 W2 B2 W3 B3 b' x' y' n' := by
  subst hn
  have hrel : ∀ c, rel Q K b x y c = rel Q' K' b' x' y' c := fun c => by unfold rel; rw [hq, hk]
  have h1 : ∀ j, hid1 Q K W1 B1 b x y j = hid1 Q' K' W1 B1 b' x' y' j := fun j => by unfold hid1; simp only [hrel]
  have h2 : ∀ j, hid2 Q K W1 B1 W2 B2 b x y j = hid2 Q' K' W1 B1 W2 B2 b' x' y' j := fun j => by unfold hid2; simp only [h1]
  unfold bias
  simp only [h2]

end

/-- The result array `[batch, head, query, key]` for 2 batches of 1024 query and 1024 key positions. -/
def result (Q K : FVec Ideal ⟨3, ![2, 1024, 2]⟩ .f32) (W1 : FVec Ideal ⟨2, ![2, 128]⟩ .f32) (B1 : FVec Ideal ⟨1, ![128]⟩ .f32)
    (W2 : FVec Ideal ⟨2, ![128, 128]⟩ .f32) (B2 : FVec Ideal ⟨1, ![128]⟩ .f32) (W3 : FVec Ideal ⟨2, ![128, 8]⟩ .f32)
    (B3 : FVec Ideal ⟨1, ![8]⟩ .f32) : FVec Ideal ⟨4, ![2, 8, 1024, 1024]⟩ .f32 := fun i =>
  bias Q K W1 B1 W2 B2 W3 B3 (i 0) (i 2) (i 3) (i 1)

end Cert.PosBias

end
-- ==== Proof.KernelLayers.lean ====
/-
  The kernel body's network, read entry by entry over one pair of blocks.

  At a grid point the body holds a block of 128 query rows and a block of 128 key rows. It lays the 128 x 128 pairs
  out as 16384 rows, pair `(p, q)` at row `p * 128 + q`, and runs the three layers as matrix products over those
  rows. Read at row `p * 128 + q`, each product is the sum over the contracted unit, the broadcast bias row is the
  bias vector, and the changes of float format are the identity on the extended reals: so the third product's entry
  `(p * 128 + q, n)` is the output layer's sum for query row `p` and key row `q` of the blocks.
-/
import proofs.«154514_j6700148981826_1_alg».proof.Proof.Gen.KernelIdeal.Skeleton
import proofs.«154514_j6700148981826_1_alg».proof.Proof.LibMatmulAt
import proofs.«154514_j6700148981826_1_alg».proof.Proof.Spec
import Idealize.ShloMosaic.Lib.Pipeline.Value
import Idealize.ShloMosaic.Lib.ValueIdx

noncomputable section

open scoped BigOperators

namespace Cert.KernelIdeal.Layers

open Cert.KernelIdeal Cert.KernelIdeal.Gen Idealize.ShloMosaic Idealize.ShloMosaic.ValueIdx
open Cert.PosBias

/-- The row of the flattened block that holds the pair (query row `p`, key row `q`). -/
def pairRow (p q : Fin 128) : Fin 16384 := ⟨p.val * 128 + q.val, by have := p.isLt; have := q.isLt; omega⟩

/-! ## The bias rows -/

/-- A 128-vector broadcast along the 16384 rows, read at `(r, j)`, is its entry `j`. -/
theorem bias_row_128 (v : Vec Ideal S128 .f32) (h1 : S128.ShapeCasts S1x128) (h2 : S1x128.Broadcasts S16384x128) (r : Fin 16384) (j : Fin 128) :
    broadcastTo S16384x128 (shapeCast S1x128 v h1) h2 (ix2 r j) = v (ix1 j) := by
  refine (broadcastTo_apply _ h2 (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact shapeCast_apply _ h1 (ix2 (0 : Fin 1) j) (ix1 j) (by rw [Shape.rowMajor_val_one, Shape.rowMajor_val_two]; show j.val = 0 * 128 + j.val; omega)

/-! ## The relative coordinate -/

/-- The query block broadcast along the key axis, read at `(p, q, c)`, is the query row `p`. -/
theorem query_bcast (P0 : Vec Ideal S1x128x2 .f32) (ha : S1x128x2.ShapeCasts S128x2) (hb : S128x2.ShapeCasts S128x1x2)
    (hc : S128x1x2.Broadcasts S128x128x2) (p q : Fin 128) (c : Fin 2) :
    broadcastTo S128x128x2 (shapeCast S128x1x2 (shapeCast S128x2 P0 ha) hb) hc (ix3 p q c) = P0 (ix3 (0 : Fin 1) p c) := by
  refine (broadcastTo_apply _ hc (ix3 p q c) (ix3 p (0 : Fin 1) c) (fun a => match a with
    | ⟨0, _⟩ => by show p.val = if (128 : Nat) = 1 then 0 else p.val; rw [if_neg (by decide)]
    | ⟨1, _⟩ => by show 0 = if (1 : Nat) = 1 then 0 else q.val; rw [if_pos rfl]
    | ⟨2, _⟩ => by show c.val = if (2 : Nat) = 1 then 0 else c.val; rw [if_neg (by decide)])).trans ?_
  refine (shapeCast_apply _ hb (ix3 p (0 : Fin 1) c) (ix2 p c) (by
    rw [Shape.rowMajor_val_two, Shape.rowMajor_val_three]; show p.val * 2 + c.val = (p.val * 1 + 0) * 2 + c.val; omega)).trans ?_
  exact shapeCast_apply _ ha (ix2 p c) (ix3 (0 : Fin 1) p c) (by
    rw [Shape.rowMajor_val_three, Shape.rowMajor_val_two]; show (0 * 128 + p.val) * 2 + c.val = p.val * 2 + c.val; omega)

/-- The key block broadcast along the query axis, read at `(p, q, c)`, is the key row `q`. -/
theorem key_bcast (P1 : Vec Ideal S1x128x2 .f32) (ha : S1x128x2.ShapeCasts S128x2) (hd : S128x2.ShapeCasts S1x128x2)
    (he : S1x128x2.Broadcasts S128x128x2) (p q : Fin 128) (c : Fin 2) :
    broadcastTo S128x128x2 (shapeCast S1x128x2 (shapeCast S128x2 P1 ha) hd) he (ix3 p q c) = P1 (ix3 (0 : Fin 1) q c) := by
  refine (broadcastTo_apply _ he (ix3 p q c) (ix3 (0 : Fin 1) q c) (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show c.val = if (2 : Nat) = 1 then 0 else c.val; rw [if_neg (by decide)])).trans ?_
  refine (shapeCast_apply _ hd (ix3 (0 : Fin 1) q c) (ix2 q c) (by
    rw [Shape.rowMajor_val_two, Shape.rowMajor_val_three]; show q.val * 2 + c.val = (0 * 128 + q.val) * 2 + c.val; omega)).trans ?_
  exact shapeCast_apply _ ha (ix2 q c) (ix3 (0 : Fin 1) q c) (by
    rw [Shape.rowMajor_val_three, Shape.rowMajor_val_two]; show (0 * 128 + q.val) * 2 + c.val = q.val * 2 + c.val; omega)

/-- The flattened difference at row `p * 128 + q`, channel `c`, is the relative coordinate of the blocks' rows. -/
theorem rel_at (P0 P1 : Vec Ideal S1x128x2 .f32) (ha : S1x128x2.ShapeCasts S128x2) (hb : S128x2.ShapeCasts S128x1x2)
    (hc : S128x1x2.Broadcasts S128x128x2) (hd : S128x2.ShapeCasts S1x128x2) (he : S1x128x2.Broadcasts S128x128x2)
    (hlt : FTy.bits .bf16 < FTy.bits .f32) (hf : S128x128x2.ShapeCasts S16384x2) (p q : Fin 128) (c : Fin 2) :
    shapeCast S16384x2 (truncf (F := Ideal) .bf16 (subf (F := Ideal) (φ := .f32) (broadcastTo S128x128x2 (shapeCast S128x1x2 (shapeCast S128x2 P0 ha) hb) hc)
      (broadcastTo S128x128x2 (shapeCast S1x128x2 (shapeCast S128x2 P1 ha) hd) he)) hlt) hf (ix2 (pairRow p q) c)
      = rel P0 P1 (0 : Fin 1) p q c := by
  refine (shapeCast_apply _ hf (ix2 (pairRow p q) c) (ix3 p q c) (by
    rw [Shape.rowMajor_val_three, Shape.rowMajor_val_two]; show (p.val * 128 + q.val) * 2 + c.val = (p.val * 128 + q.val) * 2 + c.val; rfl)).trans ?_
  show broadcastTo S128x128x2 (shapeCast S128x1x2 (shapeCast S128x2 P0 ha) hb) hc (ix3 p q c)
      - broadcastTo S128x128x2 (shapeCast S1x128x2 (shapeCast S128x2 P1 ha) hd) he (ix3 p q c) = _
  rw [query_bcast, key_bcast]
  rfl

/-! ## The layers -/

/-- A rectified affine layer over the 16384 rows, with `K` input units and 128 output units, read at `(r, j)`: the
    product into the zero accumulator is the sum over the input units, the broadcast bias row is the bias vector's entry
    `j`, and the change of format after the rectifier is the identity. -/
theorem hidden_layer_at {K : ℕ} (D : DotDims ⟨2, ![16384, K]⟩ ⟨2, ![K, 128]⟩ ⟨2, ![16384, 128]⟩)
    (hlc : D.lhsContracting = [1]) (hrc : D.rhsContracting = [0]) (hlb : D.lhsBatch = []) (hrb : D.rhsBatch = [])
    (hln : D.lhsNonContracting = [0]) (hrn : D.rhsNonContracting = [1])
    (A : FVec Ideal ⟨2, ![16384, K]⟩ .bf16) (W : FVec Ideal ⟨2, ![K, 128]⟩ .bf16)
    (hw : (⟨2, ![K, 128]⟩ : Shape).ShapeCasts ⟨2, ![K, 128]⟩) (Bv : Vec Ideal S128 .f32) (h1 : S128.ShapeCasts S1x128)
    (h2 : S1x128.Broadcasts S16384x128) (hlt : FTy.bits .bf16 < FTy.bits .f32) (r : Fin 16384) (j : Fin 128) :
    truncf (F := Ideal) .bf16 (maximumf (F := Ideal) (φ := .f32)
        (addf (F := Ideal) (φ := .f32) (matmul D none A (shapeCast ⟨2, ![K, 128]⟩ W hw) (constant S16384x128 .f32 0x00000000#32))
          (broadcastTo S16384x128 (shapeCast S1x128 Bv h1) h2))
        (broadcast S16384x128 (Scalar.ofBits .f32 0x00000000#32))) hlt (ix2 r j)
      = max ((∑ k : Fin K, A (ix2 r k) * W (ix2 k j)) + Bv (ix1 j)) zeroWord := by
  show max (FloatOps.matmul D none A (shapeCast ⟨2, ![K, 128]⟩ W hw) (constant ⟨2, ![16384, 128]⟩ .f32 0x00000000#32) (ix2 r j)
      + broadcastTo S16384x128 (shapeCast S1x128 Bv h1) h2 (ix2 r j)) zeroWord = _
  rw [shapeCast_self, LibMatmulAt.matmul_zero_at D hlc hrc hlb hrb hln hrn none A W r j, bias_row_128]

/-- An 8-vector broadcast along the 16384 rows, read at `(r, n)`, is its entry `n`. -/
theorem bias_row_8 (v : Vec Ideal S8 .f32) (h1 : S8.ShapeCasts S1x8) (h2 : S1x8.Broadcasts S16384x8) (r : Fin 16384) (n : Fin 8) :
    broadcastTo S16384x8 (shapeCast S1x8 v h1) h2 (ix2 r n) = v (ix1 n) := by
  refine (broadcastTo_apply _ h2 (ix2 r n) (ix2 (0 : Fin 1) n) (fun a => match a with
    | ⟨0, _⟩ => by show 0 = if (1 : Nat) = 1 then 0 else r.val; rw [if_pos rfl]
    | ⟨1, _⟩ => by show n.val = if (8 : Nat) = 1 then 0 else n.val; rw [if_neg (by decide)])).trans ?_
  exact shapeCast_apply _ h1 (ix2 (0 : Fin 1) n) (ix1 n) (by rw [Shape.rowMajor_val_one, Shape.rowMajor_val_two]; show n.val = 0 * 8 + n.val; omega)

/-- The output layer's product over the 16384 rows, read at `(r, n)`: the sum over the 128 hidden units. -/
theorem output_product_at (D : DotDims ⟨2, ![16384, 128]⟩ ⟨2, ![128, 8]⟩ ⟨2, ![16384, 8]⟩)
    (hlc : D.lhsContracting = [1]) (hrc : D.rhsContracting = [0]) (hlb : D.lhsBatch = []) (hrb : D.rhsBatch = [])
    (hln : D.lhsNonContracting = [0]) (hrn : D.rhsNonContracting = [1])
    (A : FVec Ideal ⟨2, ![16384, 128]⟩ .bf16) (W : FVec Ideal ⟨2, ![128, 8]⟩ .bf16)
    (hw : (⟨2, ![128, 8]⟩ : Shape).ShapeCasts ⟨2, ![128, 8]⟩) (r : Fin 16384) (n : Fin 8) :
    matmul D none A (shapeCast ⟨2, ![128, 8]⟩ W hw) (constant S16384x8 .f32 0x00000000#32) (ix2 r n)
      = ∑ k : Fin 128, A (ix2 r k) * W (ix2 k n) := by
  rw [shapeCast_self]
  exact LibMatmulAt.matmul_zero_at D hlc hrc hlb hrb hln hrn none A W r n

/-! ## The third product of the body -/

/-- THE BODY'S THIRD PRODUCT at row `p * 128 + q`, head `n`: the output layer's sum over the second hidden layer of the
    blocks' query row `p` and key row `q` (the output bias is added by the store's payload). -/
theorem third_product_at (P0 P1 : Vec Ideal S1x128x2 .f32) (P2 : Vec Ideal S2x128 .bf16) (P3 : Vec Ideal S128 .f32)
    (P4 : Vec Ideal S128x128 .bf16) (P5 : Vec Ideal S128 .f32) (P6 : Vec Ideal S128x8 .bf16) (p q : Fin 128) (n : Fin 8) :
    k0_pay2 (F := Ideal) P0 P1 P2 P3 P4 P5 P6 (ix2 (pairRow p q) n)
      = ∑ i : Fin 128, hid2 P0 P1 P2 P3 P4 P5 (0 : Fin 1) p q i * P6 (ix2 i n) := by
  unfold k0_pay2
  refine (output_product_at dot_S16384x128_S128x8_S16384x8_1_0_0_1_n_n rfl rfl rfl rfl rfl rfl _ P6 _ (pairRow p q) n).trans ?_
  refine Finset.sum_congr rfl fun i _ => congrArg (· * P6 (ix2 i n)) ?_
  refine (hidden_layer_at dot_S16384x128_S128x128_S16384x128_1_0_0_1_n_n rfl rfl rfl rfl rfl rfl _ P4 _ P5 _ _ _ (pairRow p q) i).trans ?_
  unfold hid2
  refine congrArg (fun s => max (s + P5 (ix1 i)) zeroWord) (Finset.sum_congr rfl fun k _ => congrArg (· * P4 (ix2 k i)) ?_)
  refine (hidden_layer_at dot_S16384x2_S2x128_S16384x128_1_0_0_1_n_n rfl rfl rfl rfl rfl rfl _ P2 _ P3 _ _ _ (pairRow p q) k).trans ?_
  unfold hid1
  refine congrArg (fun s => max (s + P3 (ix1 k)) zeroWord) (Finset.sum_congr rfl fun c _ => congrArg (· * P2 (ix2 c k)) ?_)
  exact rel_at P0 P1 _ _ _ _ _ _ _ p q c

end Cert.KernelIdeal.Layers

end
-- ==== Proof.KernelValue.lean ====
/-
  From the body's blocks to the whole result array.

  The grid has 2 x 8 x 8 points `(b, qi, ki)`. At a point the body sees rows `qi * 128 ..` of the queries of batch `b`,
  rows `ki * 128 ..` of the keys of batch `b`, and the whole weight and bias arrays, and writes the block
  `(b, all heads, qi * 128 .., ki * 128 ..)` of the result. Entry `(0, n, p, q)` of what it writes is the positional
  bias of the blocks' query row `p` against key row `q` for head `n`; the network is local, so that is the positional
  bias of the arrays at `(b, qi * 128 + p, ki * 128 + q)`: every point writes its block of ONE array-level function.
  The 128 blocks tile the result array, so after the run the array is that function.
-/
import proofs.«154514_j6700148981826_1_alg».proof.Proof.ValueP
import proofs.«154514_j6700148981826_1_alg».proof.Proof.KernelLayers

noncomputable section

open scoped BigOperators

namespace Cert.KernelIdeal.BlockValue

open Cert.KernelIdeal Cert.KernelIdeal.Gen Cert.KernelIdeal.ValueP Cert.KernelIdeal.Layers
open Idealize.ShloMosaic Idealize.ShloMosaic.TcCoe Idealize.SL.Sem Idealize.ShloMosaic.ValueIdx
open Idealize.ShloMosaic.Pipeline (Dat)
open Cert.PosBias

/-! ## One point's block, over arbitrary operands -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(0, n, p, q)` of the block reads the third product at the pair's row `p * 128 + q`, column `n`. -/
theorem row_of_block (y : S1x8x128x128.Idx) :
    ix8_0 y = ix2 (pairRow ⟨(y 2).val, (y 2).isLt⟩ ⟨(y 3).val, (y 3).isLt⟩) (⟨(y 1).val, (y 1).isLt⟩ : Fin 8) :=
  funext fun a => Fin.ext (by match a with | ⟨0, _⟩ => rfl | ⟨1, _⟩ => rfl)

/-- and the output bias at the head `n`. -/
theorem head_of_block (y : S1x8x128x128.Idx) : ix8_1 y = ix1 (⟨(y 1).val, (y 1).isLt⟩ : Fin 8) :=
  funext fun a => Fin.ext (by match a with | ⟨0, _⟩ => rfl)

/-- WHAT THE BODY LEAVES IN THE OUTPUT BLOCK, entry `(0, n, p, q)`: the positional bias of the query block's row `p`
    against the key block's row `q`, head `n`. -/
theorem block_entry (x0 x1 : Vec Ideal S1x128x2 .f32) (x2 : Vec Ideal S2x128 .bf16) (x3 : Vec Ideal S128 .f32)
    (x4 : Vec Ideal S128x128 .bf16) (x5 : Vec Ideal S128 .f32) (x6 : Vec Ideal S128x8 .bf16) (x7 : Vec Ideal S8 .f32)
    (y : S1x8x128x128.Idx) :
    out0_8 x0 x1 x2 x3 x4 x5 x6 x7 y
      = bias x0 x1 x2 x3 x4 x5 x6 x7 (0 : Fin 1) (⟨(y 2).val, (y 2).isLt⟩ : Fin 128) (⟨(y 3).val, (y 3).isLt⟩ : Fin 128)
          (⟨(y 1).val, (y 1).isLt⟩ : Fin 8) := by
  unfold out0_8
  simp only [View.ld_unit_zero (S := S1x128x2) hz3, View.ld_unit_zero (S := S2x128) hz2, View.ld_unit_zero (S := S128) hz1,
    View.ld_unit_zero (S := S128x128) hz2, View.ld_unit_zero (S := S128x8) hz2, View.ld_unit_zero (S := S8) hz1]
  rw [canon8_eq]
  show k0_pay2 (F := Ideal) x0 x1 x2 x3 x4 x5 x6 (ix8_0 y) + x7 (ix8_1 y) = _
  rw [row_of_block, head_of_block, third_product_at]
  rfl

/-! ## The blocks and the arrays, at their literal types -/

variable (m : (ℓ : Loc nD τ sig) → Buf (Elt Ideal) ℓ) (ρ : Dev nD → PrngReg)

abbrev qblk (c : Dev nD) (t : Fin cfg0.N) : Vec Ideal S1x128x2 .f32 := iblk m c 0 t
abbrev kblk (c : Dev nD) (t : Fin cfg0.N) : Vec Ideal S1x128x2 .f32 := iblk m c 1 t
abbrev w1blk (c : Dev nD) (t : Fin cfg0.N) : Vec Ideal S2x128 .bf16 := iblk m c 2 t
abbrev b1blk (c : Dev nD) (t : Fin cfg0.N) : Vec Ideal S128 .f32 := iblk m c 3 t
abbrev w2blk (c : Dev nD) (t : Fin cfg0.N) : Vec Ideal S128x128 .bf16 := iblk m c 4 t
abbrev b2blk (c : Dev nD) (t : Fin cfg0.N) : Vec Ideal S128 .f32 := iblk m c 5 t
abbrev w3blk (c : Dev nD) (t : Fin cfg0.N) : Vec Ideal S128x8 .bf16 := iblk m c 6 t
abbrev b3blk (c : Dev nD) (t : Fin cfg0.N) : Vec Ideal S8 .f32 := iblk m c 7 t

abbrev qarr (c : Dev nD) : Vec Ideal S2x1024x2 .f32 := V m c main_arg0
abbrev karr (c : Dev nD) : Vec Ideal S2x1024x2 .f32 := V m c main_arg1
abbrev w1arr (c : Dev nD) : Vec Ideal S2x128 .bf16 := V m c main_v0
abbrev b1arr (c : Dev nD) : Vec Ideal S128 .f32 := V m c main_arg3
abbrev w2arr (c : Dev nD) : Vec Ideal S128x128 .bf16 := V m c main_v1
abbrev b2arr (c : Dev nD) : Vec Ideal S128 .f32 := V m c main_arg5
abbrev w3arr (c : Dev nD) : Vec Ideal S128x8 .bf16 := V m c main_v2
abbrev b3arr (c : Dev nD) : Vec Ideal S8 .f32 := V m c main_arg7

/-! ## Where the windows' blocks lie -/

/-- The printed index maps over the 128 grid points: the query window follows the result window's batch and query-block
    coordinates, the key window its batch and key-block coordinates; the result window takes all heads. -/
theorem idx_facts : ∀ t : Fin cfg0.N,
    win0_0.index t (0 : Fin 3) = win0_8.index t (0 : Fin 4) ∧ win0_0.index t (1 : Fin 3) = win0_8.index t (2 : Fin 4)
    ∧ win0_0.index t (2 : Fin 3) = 0
    ∧ win0_1.index t (0 : Fin 3) = win0_8.index t (0 : Fin 4) ∧ win0_1.index t (1 : Fin 3) = win0_8.index t (3 : Fin 4)
    ∧ win0_1.index t (2 : Fin 3) = 0
    ∧ win0_8.index t (1 : Fin 4) = 0 ∧ win0_8.index t (0 : Fin 4) ≤ 1 ∧ win0_8.index t (2 : Fin 4) ≤ 7
    ∧ win0_8.index t (3 : Fin 4) ≤ 7 :=
  (by decide +kernel : ∀ t : Fin grid0.N, _)

/-- The weight and bias windows always sit at block index zero: each is its whole array. -/
theorem idx_weights : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

/-- Every block of the result array is SOME point's. -/
theorem idx_onto : ∀ (q0 : Fin 2) (q2 q3 : Fin 8), ∃ t : Fin cfg0.N, win0_8.index t = ![q0.val, 0, q2.val, q3.val] :=
  (by decide +kernel : ∀ (q0 : Fin 2) (q2 q3 : Fin 8), ∃ t : Fin grid0.N, win0_8.index t = ![q0.val, 0, q2.val, q3.val])

theorem w1blk_eq (c : Dev nD) (t : Fin cfg0.N) : w1blk m c t = w1arr m c := by
  funext y
  show V m c main_v0 (((cfg0.win 2).blk t).view.emb y) = V m c main_v0 y
  obtain ⟨e0, e1, -⟩ := idx_weights t
  refine congrArg (V m c main_v0) (funext fun a => Fin.ext ?_)
  match a with
  | ⟨0, _⟩ => show win0_2.index t (0 : Fin 2) * 2 + 1 * (y 0).val = (y 0).val; omega
  | ⟨1, _⟩ => show win0_2.index t (1 : Fin 2) * 128 + 1 * (y 1).val = (y 1).val; omega

theorem b1blk_eq (c : Dev nD) (t : Fin cfg0.N) : b1blk m c t = b1arr m c := by
  funext y
  show V m c main_arg3 (((cfg0.win 3).blk t).view.emb y) = V m c main_arg3 y
  obtain ⟨-, -, e2, -⟩ := idx_weights t
  refine congrArg (V m c main_arg3) (funext fun a => Fin.ext ?_)
  match a with
  | ⟨0, _⟩ => show win0_3.index t (0 : Fin 1) * 128 + 1 * (y 0).val = (y 0).val; omega

theorem w2blk_eq (c : Dev nD) (t : Fin cfg0.N) : w2blk m c t = w2arr m c := by
  funext y
  show V m c main_v1 (((cfg0.win 4).blk t).view.emb y) = V m c main_v1 y
  obtain ⟨-, -, -, e3, e4, -⟩ := idx_weights t
  refine congrArg (V m c main_v1) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem b2blk_eq (c : Dev nD) (t : Fin cfg0.N) : b2blk m c t = b2arr m c := by
  funext y
  show V m c main_arg5 (((cfg0.win 5).blk t).view.emb y) = V m c main_arg5 y
  obtain ⟨-, -, -, -, -, e5, -⟩ := idx_weights t
  refine congrArg (V m c main_arg5) (funext fun a => Fin.ext ?_)
  match a with
  | ⟨0, _⟩ => show win0_5.index t (0 : Fin 1) * 128 + 1 * (y 0).val = (y 0).val; omega

theorem w3blk_eq (c : Dev nD) (t : Fin cfg0.N) : w3blk m c t = w3arr m c := by
  funext y
  show V m c main_v2 (((cfg0.win 6).blk t).view.emb y) = V m c main_v2 y
  obtain ⟨-, -, -, -, -, -, e6, e7, -⟩ := idx_weights t
  refine congrArg (V m c main_v2) (funext fun a => Fin.ext ?_)
  match a with
  | ⟨0, _⟩ => show win0_6.index t (0 : Fin 2) * 128 + 1 * (y 0).val = (y 0).val; omega
  | ⟨1, _⟩ => show win0_6.index t (1 : Fin 2) * 8 + 1 * (y 1).val = (y 1).val; omega

theorem b3blk_eq (c : Dev nD) (t : Fin cfg0.N) : b3blk m c t = b3arr m c := by
  funext y
  show V m c main_arg7 (((cfg0.win 7).blk t).view.emb y) = V m c main_arg7 y
  obtain ⟨-, -, -, -, -, -, -, -, e8⟩ := idx_weights t
  refine congrArg (V m c main_arg7) (funext fun a => Fin.ext ?_)
  match a with
  | ⟨0, _⟩ => show win0_7.index t (0 : Fin 1) * 8 + 1 * (y 0).val = (y 0).val; omega

/-- Row `p` of the query block at a point is the array's row `qi * 128 + p` of batch `b`. -/
theorem qblk_at (c : Dev nD) (t : Fin cfg0.N) (p : Fin 128) (ch : Fin 2) (b : Fin 2) (x : Fin 1024)
    (hb : b.val = win0_8.index t (0 : Fin 4)) (hx : x.val = win0_8.index t (2 : Fin 4) * 128 + p.val) :
    qblk m c t (ix3 (0 : Fin 1) p ch) = qarr m c (ix3 b x ch) := by
  show V m c main_arg0 (((cfg0.win 0).blk t).view.emb (ix3 (0 : Fin 1) p ch)) = V m c main_arg0 (ix3 b x ch)
  obtain ⟨e0, e1, e2, -⟩ := idx_facts t
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 128 + 1 * p.val = x.val; omega
  | ⟨2, _⟩ => show win0_0.index t (2 : Fin 3) * 2 + 1 * ch.val = ch.val; omega

/-- Row `q` of the key block at a point is the array's row `ki * 128 + q` of batch `b`. -/
theorem kblk_at (c : Dev nD) (t : Fin cfg0.N) (q : Fin 128) (ch : Fin 2) (b : Fin 2) (y : Fin 1024)
    (hb : b.val = win0_8.index t (0 : Fin 4)) (hy : y.val = win0_8.index t (3 : Fin 4) * 128 + q.val) :
    kblk m c t (ix3 (0 : Fin 1) q ch) = karr m c (ix3 b y ch) := by
  show V m c main_arg1 (((cfg0.win 1).blk t).view.emb (ix3 (0 : Fin 1) q ch)) = V m c main_arg1 (ix3 b y ch)
  obtain ⟨-, -, -, e3, e4, e5, -⟩ := idx_facts t
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 128 + 1 * q.val = y.val; omega
  | ⟨2, _⟩ => show win0_1.index t (2 : Fin 3) * 2 + 1 * ch.val = ch.val; omega

/-! ## What a point writes back, and the final array -/

/-- WHAT POINT `t` WRITES BACK is block `t` of the positional-bias array of the arrays as the region finds them. -/
theorem flushed_eq (c : Dev nD) (t : Fin cfg0.N) :
    (dats m 0 c).flushed 8 t = ((cfg0.win 8).blk t).view.read (Elt Ideal)
      (result (qarr m c) (karr m c) (w1arr m c) (b1arr m c) (w2arr m c) (b2arr m c) (w3arr m c) (b3arr m c)) := by
  rw [flushed8]
  funext j
  show out0_8 (qblk m c t) (kblk m c t) (w1blk m c t) (b1blk m c t) (w2blk m c t) (b2blk m c t) (w3blk m c t) (b3blk m c t) j
    = result (qarr m c) (karr m c) (w1arr m c) (b1arr m c) (w2arr m c) (b2arr m c) (w3arr m c) (b3arr m c)
        (((cfg0.win 8).blk t).view.emb j)
  refine (block_entry (qblk m c t) (kblk m c t) (w1blk m c t) (b1blk m c t) (w2blk m c t) (b2blk m c t) (w3blk m c t)
    (b3blk m c t) j).trans ?_
  rw [w1blk_eq, b1blk_eq, w2blk_eq, b2blk_eq, w3blk_eq, b3blk_eq]
  obtain ⟨-, -, -, -, -, -, e6, e7, e8, e9⟩ := idx_facts t
  have hj0 : (j 0).val < 1 := (j 0).isLt
  have hj1 : (j 1).val < 8 := (j 1).isLt
  have hj2 : (j 2).val < 128 := (j 2).isLt
  have hj3 : (j 3).val < 128 := (j 3).isLt
  unfold result
  refine bias_local (qblk m c t) (kblk m c t) (w1arr m c) (b1arr m c) (w2arr m c) (b2arr m c) (w3arr m c) (b3arr m c)
    (qarr m c) (karr m c) (0 : Fin 1) _ _ _ _ _
    (fun ch => qblk_at m c t _ ch _ _ ?_ ?_) (fun ch => kblk_at m c t _ ch _ _ ?_ ?_) _ _ (Fin.ext ?_)
  · show win0_8.index t (0 : Fin 4) * 1 + 1 * (j 0).val = win0_8.index t (0 : Fin 4); omega
  · show win0_8.index t (2 : Fin 4) * 128 + 1 * (j 2).val = win0_8.index t (2 : Fin 4) * 128 + (j 2).val; omega
  · show win0_8.index t (0 : Fin 4) * 1 + 1 * (j 0).val = win0_8.index t (0 : Fin 4); omega
  · show win0_8.index t (3 : Fin 4) * 128 + 1 * (j 3).val = win0_8.index t (3 : Fin 4) * 128 + (j 3).val; omega
  · show (j 1).val = win0_8.index t (1 : Fin 4) * 8 + 1 * (j 1).val; omega

/-- An index of the result array is in point `t`'s block iff each coordinate is in the block's range on its axis. -/
theorem mem_blk (t : Fin cfg0.N) (i : S2x8x1024x1024.Idx) :
    i ∈ ((cfg0.win 8).blk t).view.set ↔ ∀ a : Fin 4, win0_8.index t a * S1x8x128x128.size a ≤ (i a).val
      ∧ (i a).val < win0_8.index t a * S1x8x128x128.size a + S1x8x128x128.size a := by
  show i ∈ ((View.whole main_v3).slice (win0_8.rect t)).set ↔ _
  rw [View.set_slice_whole, Rect.mem_set_unit]
  exact Iff.rfl

/-- The 128 blocks tile the result array: entry `(b, n, x, y)` lies in the block of the point `(b, x / 128, y / 128)`. -/
theorem cover (i : S2x8x1024x1024.Idx) :
    ∃ t : Fin cfg0.N, (cfg0.win 8).flush t = true ∧ i ∈ ((cfg0.win 8).blk t).view.set := by
  have hi0 : (i 0).val < 2 := (i 0).isLt
  have hi1 : (i 1).val < 8 := (i 1).isLt
  have hi2 : (i 2).val < 1024 := (i 2).isLt
  have hi3 : (i 3).val < 1024 := (i 3).isLt
  obtain ⟨t, ht⟩ := idx_onto ⟨(i 0).val, hi0⟩ ⟨(i 2).val / 128, by omega⟩ ⟨(i 3).val / 128, by omega⟩
  have q0 : win0_8.index t (0 : Fin 4) = (i 0).val := congrFun ht 0
  have q1 : win0_8.index t (1 : Fin 4) = 0 := congrFun ht 1
  have q2 : win0_8.index t (2 : Fin 4) = (i 2).val / 128 := congrFun ht 2
  have q3 : win0_8.index t (3 : Fin 4) = (i 3).val / 128 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 128 ≤ (i 2).val ∧ (i 2).val < win0_8.index t (2 : Fin 4) * 128 + 128; omega
  | ⟨3, _⟩ => show win0_8.index t (3 : Fin 4) * 128 ≤ (i 3).val ∧ (i 3).val < win0_8.index t (3 : Fin 4) * 128 + 128; omega

/-- THE RESULT ARRAY after the run is the positional-bias array of the arrays as the region finds them. -/
theorem final_eq (c : Dev nD) :
    (dats m 0 c).arrAt 8 cfg0.N
      = result (qarr m c) (karr m c) (w1arr m c) (b1arr m c) (w2arr m c) (b2arr m c) (w3arr m c) (b3arr m c) :=
  (dats m 0 c).arrAt_eq_of_cover 8 _ (fun t _ => flushed_eq m c t) cover

/-! ## The arrays as the region finds them are the arguments -/

theorem qarr_eq (c : Dev nD) : qarr m c = m ((c : Thread nD τ).loc main_arg0) := V_main_arg0 m c
theorem karr_eq (c : Dev nD) : karr m c = m ((c : Thread nD τ).loc main_arg1) := V_main_arg1 m c
theorem b1arr_eq (c : Dev nD) : b1arr m c = m ((c : Thread nD τ).loc main_arg3) := V_main_arg3 m c
theorem b2arr_eq (c : Dev nD) : b2arr m c = m ((c : Thread nD τ).loc main_arg5) := V_main_arg5 m c
theorem b3arr_eq (c : Dev nD) : b3arr m c = m ((c : Thread nD τ).loc main_arg7) := V_main_arg7 m c

/-- The weights the region reads are the argument weights in a narrower float format: on the extended reals, the
    argument weights themselves. -/
theorem w1arr_eq (c : Dev nD) : (w1arr m c : S2x128.Idx → EReal) = m ((c : Thread nD τ).loc main_arg2) := by
  dsimp only [w1arr, w2arr, w3arr, V, hostOps0]; after_results; rfl
theorem w2arr_eq (c : Dev nD) : (w2arr m c : S128x128.Idx → EReal) = m ((c : Thread nD τ).loc main_arg4) := by
  dsimp only [w1arr, w2arr, w3arr, V, hostOps0]; after_results; rfl
theorem w3arr_eq (c : Dev nD) : (w3arr m c : S128x8.Idx → EReal) = m ((c : Thread nD τ).loc main_arg6) := by
  dsimp only [w1arr, w2arr, w3arr, V, hostOps0]; after_results; rfl

/-! ## The run, read -/

/-- THE KERNEL'S RUN: every weakly fair execution ends with the result array at the positional-bias function of the
    argument arrays, and the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final_eq m c).trans (by
      rw [qarr_eq, karr_eq, w1arr_eq, b1arr_eq, w2arr_eq, b2arr_eq, w3arr_eq, b3arr_eq])), (h c).2⟩)
    (run_blocks m ρ)

end Cert.KernelIdeal.BlockValue

end
-- ==== Proof.RefValue.lean ====
/-
  The reference network, read entry by entry, is the positional-bias function.

  The reference broadcasts the two coordinate arrays against each other, subtracts, and applies the three affine
  layers as contractions over the last axis of a `[batch, query, key, unit]` array, with a rectifier after the
  first two and a final transposition to `[batch, head, query, key]`. Stage by stage, at the entry
  `(b, x, y, ·)`, each contraction is the sum over the contracted unit of the previous stage at `(b, x, y, k)`
  times the weight at `(k, ·)`, and each broadcast bias is the bias vector at the unit; these are the layers of
  the positional-bias function at `(b, x, y)`.
-/
import proofs.«154514_j6700148981826_1_alg».proof.Proof.Gen.ReferenceIdeal.Read
import proofs.«154514_j6700148981826_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PosBias

variable (x0 x1 : (⟨S2x1024x2, .f32⟩ : BufTy).Contents (Elt Ideal)) (x2 : (⟨S2x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x8, .f32⟩ : BufTy).Contents (Elt Ideal))
  (x7 : (⟨S8, .f32⟩ : BufTy).Contents (Elt Ideal))

/-! ## Where each stage reads its operands -/

theorem query_idx (b : Fin 2) (x y : Fin 1024) (c : Fin 2) : idx_main_v0 (idx_main_v2 (ix4 b x y c)) = ix3 b x c :=
  funext fun a => Fin.ext (by match a with | ⟨0, _⟩ => rfl | ⟨1, _⟩ => rfl | ⟨2, _⟩ => rfl)

theorem key_idx (b : Fin 2) (x y : Fin 1024) (c : Fin 2) : idx_main_v1 (idx_main_v3 (ix4 b x y c)) = ix3 b y c :=
  funext fun a => Fin.ext (by match a with | ⟨0, _⟩ => rfl | ⟨1, _⟩ => rfl | ⟨2, _⟩ => rfl)

theorem lidx5 (b : Fin 2) (x y : Fin 1024) (j : Fin 128) (k : Fin 2) : lidx_main_v5 (ix4 b x y j) k = ix4 b x y k :=
  funext fun a => Fin.ext (by match a with | ⟨0, _⟩ => rfl | ⟨1, _⟩ => rfl | ⟨2, _⟩ => rfl | ⟨3, _⟩ => rfl)

theorem ridx5 (b : Fin 2) (x y : Fin 1024) (j : Fin 128) (k : Fin 2) : ridx_main_v5 (ix4 b x y j) k = ix2 k j :=
  funext fun a => Fin.ext (by match a with | ⟨0, _⟩ => rfl | ⟨1, _⟩ => rfl)

theorem bias1_idx (b : Fin 2) (x y : Fin 1024) (j : Fin 128) : idx_main_v6 (idx_main_v7 (ix4 b x y j)) = ix1 j :=
  funext fun a => Fin.ext (by match a with | ⟨0, _⟩ => rfl)

theorem lidx10 (b : Fin 2) (x y : Fin 1024) (j : Fin 128) (k : Fin 128) : lidx_main_v10 (ix4 b x y j) k = ix4 b x y k :=
  funext fun a => Fin.ext (by match a with | ⟨0, _⟩ => rfl | ⟨1, _⟩ => rfl | ⟨2, _⟩ => rfl | ⟨3, _⟩ => rfl)

theorem ridx10 (b : Fin 2) (x y : Fin 1024) (j : Fin 128) (k : Fin 128) : ridx_main_v10 (ix4 b x y j) k = ix2 k j :=
  funext fun a => Fin.ext (by match a with | ⟨0, _⟩ => rfl | ⟨1, _⟩ => rfl)

theorem bias2_idx (b : Fin 2) (x y : Fin 1024) (j : Fin 128) : idx_main_v11 (idx_main_v12 (ix4 b x y j)) = ix1 j :=
  funext fun a => Fin.ext (by match a with | ⟨0, _⟩ => rfl)

theorem lidx15 (b : Fin 2) (x y : Fin 1024) (n : Fin 8) (k : Fin 128) : lidx_main_v15 (ix4 b x y n) k = ix4 b x y k :=
  funext fun a => Fin.ext (by match a with | ⟨0, _⟩ => rfl | ⟨1, _⟩ => rfl | ⟨2, _⟩ => rfl | ⟨3, _⟩ => rfl)

theorem ridx15 (b : Fin 2) (x y : Fin 1024) (n : Fin 8) (k : Fin 128) : ridx_main_v15 (ix4 b x y n) k = ix2 k n :=
  funext fun a => Fin.ext (by match a with | ⟨0, _⟩ => rfl | ⟨1, _⟩ => rfl)

theorem bias3_idx (b : Fin 2) (x y : Fin 1024) (n : Fin 8) : idx_main_v16 (idx_main_v17 (ix4 b x y n)) = ix1 n :=
  funext fun a => Fin.ext (by match a with | ⟨0, _⟩ => rfl)

theorem head_last_idx (b : Fin 2) (n : Fin 8) (x y : Fin 1024) : idx_main_v19 (ix4 b n x y) = ix4 b x y n :=
  funext fun a => Fin.ext (by match a with | ⟨0, _⟩ => rfl | ⟨1, _⟩ => rfl | ⟨2, _⟩ => rfl | ⟨3, _⟩ => rfl)

/-! ## The stages -/

/-- The broadcast difference at `(b, x, y, c)` is the relative coordinate. -/
theorem rel_eq (b : Fin 2) (x y : Fin 1024) (c : Fin 2) :
    val_main_v4 (F := Ideal) x0 x1 (ix4 b x y c) = rel x0 x1 b x y c := by
  rw [val_main_v4_apply, val_main_v2_apply, val_main_v0_apply, val_main_v3_apply, val_main_v1_apply, query_idx, key_idx]
  rfl

/-- The first rectified layer at `(b, x, y, j)`. -/
theorem hid1_eq (b : Fin 2) (x y : Fin 1024) (j : Fin 128) :
    val_main_v9 (F := Ideal) x0 x1 x2 x3 (ix4 b x y j) = hid1 x0 x1 x2 x3 b x y j := by
  rw [val_main_v9_apply, val_main_v8_apply, val_main_v5_apply, val_main_v7_apply, val_main_v6_apply, val_main_call0_v0_apply,
    val_main_call0_cst_apply, bias1_idx]
  have hs : ∑ k : Fin 2, val_main_v4 (F := Ideal) x0 x1 (lidx_main_v5 (ix4 b x y j) k) * x2 (ridx_main_v5 (ix4 b x y j) k)
      = ∑ c : Fin 2, rel x0 x1 b x y c * x2 (ix2 c j) :=
    Finset.sum_congr rfl fun k _ => by rw [lidx5, ridx5, rel_eq]
  rw [hs]
  rfl

/-- The second rectified layer at `(b, x, y, j)`. -/
theorem hid2_eq (b : Fin 2) (x y : Fin 1024) (j : Fin 128) :
    val_main_v14 (F := Ideal) x0 x1 x2 x3 x4 x5 (ix4 b x y j) = hid2 x0 x1 x2 x3 x4 x5 b x y j := by
  rw [val_main_v14_apply, val_main_v13_apply, val_main_v10_apply, val_main_v12_apply, val_main_v11_apply, val_main_call1_v0_apply,
    val_main_call1_cst_apply, bias2_idx]
  have hs : ∑ k : Fin 128, val_main_v9 (F := Ideal) x0 x1 x2 x3 (lidx_main_v10 (ix4 b x y j) k) * x4 (ridx_main_v10 (ix4 b x y j) k)
      = ∑ i : Fin 128, hid1 x0 x1 x2 x3 b x y i * x4 (ix2 i j) :=
    Finset.sum_congr rfl fun k _ => by rw [lidx10, ridx10, hid1_eq]
  rw [hs]
  rfl

/-- The output layer at `(b, x, y, n)`. -/
theorem bias_eq (b : Fin 2) (x y : Fin 1024) (n : Fin 8) :
    val_main_v18 (F := Ideal) x0 x1 x2 x3 x4 x5 x6 x7 (ix4 b x y n) = bias x0 x1 x2 x3 x4 x5 x6 x7 b x y n := by
  rw [val_main_v18_apply, val_main_v15_apply, val_main_v17_apply, val_main_v16_apply, bias3_idx]
  have hs : ∑ k : Fin 128, val_main_v14 (F := Ideal) x0 x1 x2 x3 x4 x5 (lidx_main_v15 (ix4 b x y n) k) * x6 (ridx_main_v15 (ix4 b x y n) k)
      = ∑ i : Fin 128, hid2 x0 x1 x2 x3 x4 x5 b x y i * x6 (ix2 i n) :=
    Finset.sum_congr rfl fun k _ => by rw [lidx15, ridx15, hid2_eq]
  rw [hs]
  rfl

/-- THE REFERENCE'S RESULT is the positional-bias array: the transposition reads the output layer at
    `(b, x, y, n)` for the entry `(b, n, x, y)`. -/
theorem reference_eq :
    val_main_v19 (F := Ideal) x0 x1 x2 x3 x4 x5 x6 x7 = result x0 x1 x2 x3 x4 x5 x6 x7 := by
  funext i
  obtain ⟨b, n, x, y, rfl⟩ : ∃ (b : Fin 2) (n : Fin 8) (x y : Fin 1024), i = ix4 b n x y := ⟨i 0, i 1, i 2, i 3, eq_ix4 i⟩
  rw [val_main_v19_apply, head_last_idx, bias_eq]
  rfl

end Cert.ReferenceIdeal.RefValue

end
-- ==== Proof.lean ====
/-
  The kernel computes a continuous positional bias: for every batch, query position, key position and head, a
  three-layer perceptron of the relative coordinate `query - key` (two rectified hidden layers of 128 units, eight
  heads), laid out `[batch, head, query, key]`. The kernel runs it on 128 x 128 tiles of (query, key) pairs, flattening
  a tile's pairs to 16384 rows and applying the layers as matrix products with weights held in a narrower float
  format; the reference runs it on the whole `[batch, query, key, unit]` array by contractions and transposes at the
  end. On the extended reals a change of float format is the identity and a matrix product into a zero accumulator is the
  plain sum over the contracted unit, so both compute the same function (Proof/Spec.lean) entry by entry: no
  algebraic law beyond reading both sums over the same index is needed, and the precondition is not opened.

  Proof/KernelLayers.lean reads the kernel body's third product at a pair's row; Proof/KernelValue.lean carries that
  from the tiles to the whole array (every grid point writes its tile of one array-level function, and the tiles cover
  the array); Proof/RefValue.lean reads the reference stage by stage. The frames are the generated ones, and the
  reference's frame is its generated run with the result dropped. The idealization rewrote nothing, so there is nothing
  to preserve.
-/
import proofs.«154514_j6700148981826_1_alg».proof.Defs
import proofs.«154514_j6700148981826_1_alg».proof.Proof.Gen.Kernel
import proofs.«154514_j6700148981826_1_alg».proof.Proof.Gen.Kernel.Skeleton
import proofs.«154514_j6700148981826_1_alg».proof.Proof.Gen.Kernel.Launch
import proofs.«154514_j6700148981826_1_alg».proof.Proof.Gen.Kernel.Points
import proofs.«154514_j6700148981826_1_alg».proof.Proof.Gen.Kernel.Frame
import proofs.«154514_j6700148981826_1_alg».proof.Proof.Gen.KernelIdeal
import proofs.«154514_j6700148981826_1_alg».proof.Proof.Gen.KernelIdeal.Skeleton
import proofs.«154514_j6700148981826_1_alg».proof.Proof.Gen.KernelIdeal.Launch
import proofs.«154514_j6700148981826_1_alg».proof.Proof.Gen.KernelIdeal.Points
import proofs.«154514_j6700148981826_1_alg».proof.Proof.Gen.KernelIdeal.Frame
import proofs.«154514_j6700148981826_1_alg».proof.Proof.Gen.ReferenceIdeal
import proofs.«154514_j6700148981826_1_alg».proof.Proof.Gen.Pre_finite_inputs
import proofs.«154514_j6700148981826_1_alg».proof.Proof.Gen.ReferenceIdeal.Run
import proofs.«154514_j6700148981826_1_alg».proof.Proof.Gen.ReferenceIdeal.Read
import proofs.«154514_j6700148981826_1_alg».proof.Proof.KernelValue
import proofs.«154514_j6700148981826_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the positional-bias function of their argument arrays, and the argument
    arrays agree. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.reference_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
